-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S1000x1000 : Shape := ⟨2, ![1000, 1000]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S1000x1000 : S_.BroadcastsInDim S1000x1000 (![] : Fin 0 → Fin S1000x1000.rank)
  reducesTo_S1000x1000_S_d0_1 : S1000x1000.ReducesTo [0, 1] S_

variable [Facts]

def fn {F : FTy → Type} [FloatOps F] (main_arg0 : FVec F S16384x1000 .f32) (main_arg1 : FVec F S1000x1000 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S1000x1000 .f32 := Host.absf main_arg1
  let main_cst_0 : FVec F S_ .f32 := constant S_ .f32 0x7F800000#32
  let main_v5 : FVec F S1000x1000 .f32 := broadcastInDim S1000x1000 ![] bcast_S_S1000x1000 main_cst_0
  let main_v6 : IVec S1000x1000 1 := cmpf .olt main_v4 main_v5
  let main_c_1 : IVec S_ 1 := constantI S_ 1 1#1
  let main_v7 : IVec S_ 1 := (fun x v => Host.reduce IntOp.andi x v reducesTo_S1000x1000_S_d0_1 h_S_) main_v6 main_c_1
  let main_v8 : IVec S_ 1 := andi main_v3 main_v7
  main_v8
-- ==== Kernel.lean ====
abbrev S16384x1000 : Shape := ⟨2, ![16384, 1000]⟩
abbrev S1000x1000 : Shape := ⟨2, ![1000, 1000]⟩
abbrev S_ : Shape := ⟨0, ![]⟩
abbrev S1000 : Shape := ⟨1, ![1000]⟩
abbrev S1x1000 : Shape := ⟨2, ![1, 1000]⟩
abbrev S1024x1000 : Shape := ⟨2, ![1024, 1000]⟩
abbrev S1024 : Shape := ⟨1, ![1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1000, .f32⟩
  | .hbm, ⟨1, _⟩ => ⟨S1000x1000, .f32⟩
  | .hbm, ⟨2, _⟩ => ⟨S_, .f32⟩
  | .hbm, ⟨3, _⟩ => ⟨S1000, .f32⟩
  | .hbm, ⟨4, _⟩ => ⟨S1x1000, .f32⟩
  | .hbm, ⟨5, _⟩ => ⟨S16384x1000, .f32⟩
  | .local _ .vmem, ⟨0, _⟩ => ⟨S1024x1000, .f32⟩
  | .local _ .vmem, ⟨1, _⟩ => ⟨S1024x1000, .f32⟩
  | .local _ .vmem, ⟨2, _⟩ => ⟨S1000x1000, .f32⟩
  | .local _ .vmem, ⟨3, _⟩ => ⟨S1x1000, .f32⟩
  | .local _ .vmem, ⟨4, _⟩ => ⟨S1024x1000, .f32⟩
  | .local _ .vmem, ⟨5, _⟩ => ⟨S1024x1000, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1000x1000_S1000_d1 : S1000x1000.ReducesTo [1] S1000
  h_S_ : 0 < S_.numel
  bcast_S1000_S1x1000_1 : S1000.BroadcastsInDim S1x1000 (![1] : Fin 1 → Fin S1x1000.rank)
  inb_S1024x1000_S1024x1000_0_0 : ∀ a, (![0, 0] : Fin 2 → Nat) a + S1024x1000.size a ≤ S1024x1000.size a
  h_S1024x1000 : 0 < S1024x1000.numel
  inb_S1000x1000_S1000x1000_0_0 : ∀ a, (![0, 0] : Fin 2 → Nat) a + S1000x1000.size a ≤ S1000x1000.size a
  h_S1000x1000 : 0 < S1000x1000.numel
  bitsLt_bf16_f32 : FTy.bits .bf16 < FTy.bits .f32
  reduces_S1024x1000_S1024 : S1024x1000.Reduces [1] S1024
  shapeCasts_S1024_S1024x1 : S1024.ShapeCasts S1024x1
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1024x1_S1024x1000 : S1024x1.Broadcasts S1024x1000
  broadcasts_S1x1000_S1024x1000 : S1x1000.Broadcasts S1024x1000
  dot_S1024x1000_S1000x1000_S1024x1000_1_1_0_0_n_n_wf : DotDims.WF S1024x1000 S1000x1000 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S16384x1000.size a
  hwx0_0 : ∀ i : grid0.Coords, EltTy.bits .f32 = 32 ∨ (Rect.block (s := S16384x1000) S1024x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x1000.size a ≤ S1000x1000.size a
  hwx0_1 : ∀ i : grid0.Coords, EltTy.bits .f32 = 32 ∨ (Rect.block (s := S1000x1000) S1000x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1000.size a ≤ S16384x1000.size a
  hwx0_3 : ∀ i : grid0.Coords, EltTy.bits .f32 = 32 ∨ (Rect.block (s := S16384x1000) S1024x1000.size (cc0_transform_3 i) (hinb0_3 i)).WholeWords (EltTy.packing .f32)

variable [Facts₀]

def dot_S1024x1000_S1000x1000_S1024x1000_1_1_0_0_n_n : DotDims S1024x1000 S1000x1000 S1024x1000 where
  lhsContracting := [1]
  rhsContracting := [1]
  lhsNonContracting := [0]
  rhsNonContracting := [0]
  lhsBatch := []
  rhsBatch := []
  wf := dot_S1024x1000_S1000x1000_S1024x1000_1_1_0_0_n_n_wf

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S1000x1000 : Shape := ⟨2, ![1000, 1000]⟩
abbrev S_ : Shape := ⟨0, ![]⟩
abbrev S16384 : Shape := ⟨1, ![16384]⟩
abbrev S16384x1 : Shape := ⟨2, ![16384, 1]⟩
abbrev S1000 : Shape := ⟨1, ![1000]⟩
abbrev S1x1000 : Shape := ⟨2, ![1, 1000]⟩

abbrev nBuf : Space → Nat
  | .hbm => 22
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S1000x1000, .f32⟩
  | .hbm, ⟨2, _⟩ => ⟨S16384x1000, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S1000, .f32⟩
  | .hbm, ⟨8, _⟩ => ⟨S1x1000, .f32⟩
  | .hbm, ⟨9, _⟩ => ⟨S_, .f32⟩
  | .hbm, ⟨10, _⟩ => ⟨S16384x1000, .f32⟩
  | .hbm, ⟨11, _⟩ => ⟨S16384x1000, .f32⟩
  | .hbm, ⟨12, _⟩ => ⟨S_, .f32⟩
  | .hbm, ⟨13, _⟩ => ⟨S16384x1000, .f32⟩
  | .hbm, ⟨14, _⟩ => ⟨S16384x1000, .f32⟩
  | .hbm, ⟨15, _⟩ => ⟨S16384x1000, .f32⟩
  | .hbm, ⟨16, _⟩ => ⟨S16384x1000, .f32⟩
  | .hbm, ⟨17, _⟩ => ⟨S16384x1000, .f32⟩
  | .hbm, ⟨18, _⟩ => ⟨S16384x1000, .f32⟩
  | .hbm, ⟨19, _⟩ => ⟨S_, .f32⟩
  | .hbm, ⟨20, _⟩ => ⟨S16384x1000, .f32⟩
  | .hbm, ⟨21, _⟩ => ⟨S16384x1000, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S16384x1000_S16384_d1 : S16384x1000.ReducesTo [1] S16384
  h_S_ : 0 < S_.numel
  bcast_S16384_S16384x1_0 : S16384.BroadcastsInDim S16384x1 (![0] : Fin 1 → Fin S16384x1.rank)
  reducesTo_S1000x1000_S1000_d1 : S1000x1000.ReducesTo [1] S1000
  bcast_S1000_S1x1000_1 : S1000.BroadcastsInDim S1x1000 (![1] : Fin 1 → Fin S1x1000.rank)
  bcast_S_S16384x1000 : S_.BroadcastsInDim S16384x1000 (![] : Fin 0 → Fin S16384x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  dot_S16384x1000_S1000x1000_S16384x1000_1_1_0_0_n_n_wf : DotDims.WF S16384x1000 S1000x1000 S16384x1000 [1] [1] [0] [0] [] []

variable [Facts₀]

def dot_S16384x1000_S1000x1000_S16384x1000_1_1_0_0_n_n : DotDims S16384x1000 S1000x1000 S16384x1000 where
  lhsContracting := [1]
  rhsContracting := [1]
  lhsNonContracting := [0]
  rhsNonContracting := [0]
  lhsBatch := []
  rhsBatch := []
  wf := dot_S16384x1000_S1000x1000_S16384x1000_1_1_0_0_n_n_wf

class Facts : Prop extends Facts₀ where

variable [Facts]
-- ==== Proof.Score.lean ====
/-
  The agreement score of a feature row against a code word.

  For a feature row `a` and a code word `b`, both of length 1000, the score is
      (2 · ⟨a, b⟩ + 1000 − Σ a − Σ b) / 1000,
  the expansion of  Σ_c [a_c · b_c + (1 − a_c)(1 − b_c)] / 1000  (the negated normalised Hamming distance of
  the two when their entries are 0 or 1). It is a function of three numbers only: the inner product of the
  two, the row's sum and the code word's sum. Both programs compute it in exactly this order of operations —
  twice the inner product, plus 1000, minus the row's sum, minus the code word's sum, the whole divided by
  1000 — so no law of the extended reals beyond the equality of the three sums is needed, and the inputs'
  finiteness is never used.

  The two literals are kept as the single-precision words the programs print (2.0 and 1000.0); the same word
  stands on both sides and is never evaluated.
-/
import Idealize.ShloMosaic.PureOps.Ideal
import Idealize.ShloMosaic.Lib.ValueIdx

noncomputable section

namespace Cert.Score

open Idealize.ShloMosaic Idealize.ShloMosaic.ValueIdx
open scoped BigOperators

/-- The word of 2.0 at the ideal values. -/
abbrev two : EReal := Ideal.ofBits .f32 0x40000000#32
/-- The word of 1000.0 at the ideal values. -/
abbrev thousand : EReal := Ideal.ofBits .f32 0x447A0000#32

/-- The score from the inner product `d`, the row's sum `s` and the code word's sum `r`. -/
def combine (d s r : EReal) : EReal := Ideal.div (two * d + thousand - s - r) thousand

/-- The score of a feature row `a` against a code word `b`. -/
def scoreAt (a b : Fin 1000 → EReal) : EReal :=
  combine (∑ k : Fin 1000, a k * b k) (∑ k : Fin 1000, a k) (∑ k : Fin 1000, b k)

/-- The whole result: entry `(n, k)` is the score of feature row `n` against code word `k`. -/
def score (o : (⟨2, ![16384, 1000]⟩ : Shape).Idx → EReal) (cb : (⟨2, ![1000, 1000]⟩ : Shape).Idx → EReal) :
    (⟨2, ![16384, 1000]⟩ : Shape).Idx → EReal := fun i =>
  scoreAt (fun k => o (ix2 (n0 := 16384) (n1 := 1000) (i 0) k)) (fun k => cb (ix2 (n0 := 1000) (n1 := 1000) (i 1) k))

end Cert.Score

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.BlockScore.lean ====
/-
  One grid point's block of scores, entry by entry.

  At a grid point the body holds a block `x0` of 1024 feature rows, the whole code book `x1` and the row `x2` of
  the code words' sums, and stores one 1024 × 1000 block. Entry `(p, q)` of what it stores is the score
  assembled from three numbers:
  * the inner product of feature row `p` of the block with code word `q` — the matrix product contracts the
    second axis of both operands, and narrowing the operands to half precision first changes nothing at the
    ideal values;
  * the sum of feature row `p` — a sum along the lanes, kept as a column and spread over the 1000 columns;
  * entry `q` of the row of code-word sums, spread over the 1024 rows.
-/
import proofs.«175877_j24867860644037_1_alg».proof.Proof.Gen.KernelIdeal.Skeleton
import proofs.«175877_j24867860644037_1_alg».proof.Proof.Score
import proofs.«175877_j24867860644037_1_alg».proof.Proof.LibDotFormats
import proofs.«175877_j24867860644037_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockScore

open Cert.KernelIdeal Cert.KernelIdeal.Gen Idealize.ShloMosaic Idealize.ShloMosaic.ValueIdx Cert.Score
open scoped BigOperators

/-- The product of the block of feature rows with the code book, both contracted along their second axis, at
    `(p, q)`: the inner product of feature row `p` with code word `q`. -/
theorem inner_at (x0 : Vec Ideal S1024x1000 .f32) (x1 : Vec Ideal S1000x1000 .f32) (p : Fin 1024) (q : Fin 1000) :
    matmul (F := Ideal) dot_S1024x1000_S1000x1000_S1024x1000_1_1_0_0_n_n none (truncf .bf16 x0 bitsLt_bf16_f32) (truncf .bf16 x1 bitsLt_bf16_f32)
        (constant (F := Ideal) S1024x1000 .f32 0x00000000#32) (ix2 p q)
      = ∑ k : Fin 1000, x0 (ix2 p k) * x1 (ix2 q k) :=
  Cert.LibDotFormats.matmul_rows_zero_apply dot_S1024x1000_S1000x1000_S1024x1000_1_1_0_0_n_n rfl rfl rfl rfl rfl rfl none _ _ p q

/-- The sum along the lanes of the block, at row `p`: the sum of feature row `p`. -/
theorem lanesum_at (x0 : Vec Ideal S1024x1000 .f32) (hφ : FKind.Formats FTy.f32) (hacc : (0x00000000#32 : BitVec 32) = 0x00000000#32) (p : Fin 1024) :
    multiReduction (F := Ideal) .add [1] S1024 x0 0x00000000#32 reduces_S1024x1000_S1024 hφ hacc (ix1 p)
      = ∑ k : Fin 1000, x0 (ix2 p k) := by
  refine (Ideal.multiReduction_add_single x0 0x00000000#32 reduces_S1024x1000_S1024 hφ hacc (ix1 p)).trans ?_
  refine Finset.sum_congr rfl fun k _ => ?_
  exact congrArg x0 (funext fun a => Fin.ext (by match a with | ⟨0, _⟩ => rfl | ⟨1, _⟩ => rfl))

/-- The lane sums kept as a column and spread over the columns, at `(p, q)`: the sum of feature row `p`,
    whatever `q`. -/
theorem rowsum_at (x0 : Vec Ideal S1024x1000 .f32) (hφ : FKind.Formats FTy.f32) (hacc : (0x00000000#32 : BitVec 32) = 0x00000000#32) (p : Fin 1024) (q : Fin 1000) :
    broadcastTo S1024x1000 (shapeCast S1024x1 (multiReduction (F := Ideal) .add [1] S1024 x0 0x00000000#32 reduces_S1024x1000_S1024 hφ hacc) shapeCasts_S1024_S1024x1) broadcasts_S1024x1_S1024x1000 (ix2 p q)
      = ∑ k : Fin 1000, x0 (ix2 p k) := by
  rw [Cert.LibColumn.broadcastTo_a1_ab_apply, Cert.LibColumn.shapeCast_a_a1_apply]
  exact lanesum_at x0 hφ hacc p

/-- The row of code-word sums spread over the rows, at `(p, q)`: its entry `q`, whatever `p`. -/
theorem codesum_at (x2 : Vec Ideal S1x1000 .f32) (p : Fin 1024) (q : Fin 1000) :
    broadcastTo S1024x1000 (shapeCast S1x1000 x2 shapeCasts_S1x1000_S1x1000) broadcasts_S1x1000_S1024x1000 (ix2 p q)
      = x2 (ix2 (0 : Fin 1) q) := by
  rw [shapeCast_self, broadcastTo_1b_ab_apply]

/-- What the body stores, at `(p, q)`: the score from the inner product of feature row `p` of the block with
    code word `q`, that row's sum, and entry `q` of the row of code-word sums. -/
theorem pay_at (x0 : Vec Ideal S1024x1000 .f32) (x1 : Vec Ideal S1000x1000 .f32) (x2 : Vec Ideal S1x1000 .f32) (p : Fin 1024) (q : Fin 1000) :
    k0_pay1 (F := Ideal) x0 x1 x2 (ix2 p q)
      = combine (∑ k : Fin 1000, x0 (ix2 p k) * x1 (ix2 q k)) (∑ k : Fin 1000, x0 (ix2 p k)) (x2 (ix2 (0 : Fin 1) q)) := by
  unfold k0_pay1 combine
  simp only [divf_apply, subf_apply, addf_apply, mulf_apply, broadcast_apply]
  rw [inner_at, rowsum_at, codesum_at]
  rfl

/-- The same with the three loaded values named: if feature row `p` of the block is `a`, code word `q` is `b` and
    entry `q` of the row of sums is `r`, the stored entry is the score from `⟨a, b⟩`, `Σ a` and `r`. -/
theorem pay_of (x0 : Vec Ideal S1024x1000 .f32) (x1 : Vec Ideal S1000x1000 .f32) (x2 : Vec Ideal S1x1000 .f32) (p : Fin 1024) (q : Fin 1000)
    (a b : Fin 1000 → EReal) (r : EReal)
    (ha : ∀ k : Fin 1000, x0 (ix2 p k) = a k) (hb : ∀ k : Fin 1000, x1 (ix2 q k) = b k) (hr : x2 (ix2 (0 : Fin 1) q) = r) :
    k0_pay1 (F := Ideal) x0 x1 x2 (ix2 p q) = combine (∑ k : Fin 1000, a k * b k) (∑ k : Fin 1000, a k) r := by
  rw [pay_at, hr]
  simp only [ha, hb]

end Cert.KernelIdeal.BlockScore

end
-- ==== Proof.CodeSums.lean ====
/-
  The row of code-word sums the kernel is handed.

  Before the grid runs, the host sums every code word (a sum along the second axis of the code book, from zero)
  and lays the 1000 sums out as one row. Entry `q` of that row is the sum of code word `q`.
-/
import proofs.«175877_j24867860644037_1_alg».proof.Proof.Gen.KernelIdeal.Frame
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.CodeSums

open Cert.KernelIdeal Cert.KernelIdeal.Gen Idealize.ShloMosaic Idealize.ShloMosaic.TcCoe Idealize.ShloMosaic.ValueIdx Idealize.SL.Sem
open scoped BigOperators

variable (m : (ℓ : Loc nD τ sig) → Buf (Elt Ideal) ℓ)

/-- The code book as launched on core `c`, at its literal type. -/
abbrev book (c : Dev nD) : Vec Ideal S1000x1000 .f32 := m ((c : Thread nD τ).loc main_arg1)

/-- When the grid starts, the row holds the code words' sums from zero, laid along the second axis. -/
theorem row_eq (c : Dev nD) :
    (V m c main_v1 : S1x1000.Idx → EReal)
      = broadcastInDim S1x1000 ![1] bcast_S1000_S1x1000_1
          (Host.reduceAdd (F := Ideal) (m ((c : Thread nD τ).loc main_arg1)) (constant (F := Ideal) S_ .f32 0x00000000#32) reducesTo_S1000x1000_S1000_d1 h_S_) := by
  dsimp only [Gen.V, Gen.hostOps0]
  after_results

/-- Entry `q` of the sums of an array's rows from zero, laid out as one row: the sum of row `q`. -/
theorem sums_at (x : (⟨S1000x1000, .f32⟩ : BufTy).Contents (Elt Ideal)) (q : Fin 1000) :
    broadcastInDim S1x1000 ![1] bcast_S1000_S1x1000_1
        (Host.reduceAdd (F := Ideal) x (constant (F := Ideal) S_ .f32 0x00000000#32) reducesTo_S1000x1000_S1000_d1 h_S_) (ix2 (0 : Fin 1) q)
      = ∑ k : Fin 1000, x (ix2 q k) := by
  refine (broadcastInDim_apply _ bcast_S1000_S1x1000_1 _ (ix2 (0 : Fin 1) q) (ix1 q) (fun a => match a with
    | ⟨0, _⟩ => by show q.val = if (1000 : Nat) = 1 then 0 else q.val; rw [if_neg (by decide)])).trans ?_
  simp only [Host.reduceAdd, Ideal.hostReduceAdd_def]
  rw [Ideal.hostReduceAdd_single reducesTo_S1000x1000_S1000_d1 (by decide)]
  rw [show constant (F := Ideal) S_ .f32 0x00000000#32 (Shape.Idx.first h_S_) = (0 : EReal) from Ideal.ofBits_zero_f32, zero_add]
  refine Finset.sum_congr rfl fun k _ => ?_
  exact congrArg x (funext fun a => Fin.ext (by match a with | ⟨0, _⟩ => rfl | ⟨1, _⟩ => rfl))

/-- Entry `q` of the row the grid finds: the sum of code word `q` of the code book as launched. -/
theorem row_at (c : Dev nD) (q : Fin 1000) :
    (V m c main_v1 : S1x1000.Idx → EReal) (ix2 (0 : Fin 1) q)
      = ∑ k : Fin 1000, book m c (ix2 q k) := by
  rw [row_eq]
  exact sums_at (book m c) q

end Cert.KernelIdeal.CodeSums

end
-- ==== Proof.KernelScore.lean ====
/-
  The kernel's result array is the score array.

  The grid has 16 points; point `t` works on feature rows `1024·t … 1024·t + 1023`, always with the whole code
  book and the whole row of code-word sums, and writes back block `t` of the 16384 × 1000 result, all 1000
  columns of those rows.
  * What point `t` writes back is block `t` of the score array of the launched features and code book: entry
    `(p, q)` of the stored block is the score of the block's row `p` — feature row `1024·t + p` of the array —
    against code word `q`, whose sum the row of sums holds at `q`.
  * The 16 blocks cover every index: row `n` lies in block `n / 1024`.
  So after the run the result array is the score array, entry by entry.
-/
import proofs.«175877_j24867860644037_1_alg».proof.Proof.Gen.KernelIdeal.Value
import proofs.«175877_j24867860644037_1_alg».proof.Proof.BlockScore
import proofs.«175877_j24867860644037_1_alg».proof.Proof.CodeSums
import proofs.«175877_j24867860644037_1_alg».proof.Proof.Score
import Idealize.ShloMosaic.Lib.ValueIdx
import Idealize.ShloMosaic.Lib.Pipeline.Value

noncomputable section

namespace Cert.KernelIdeal.ScoreValue

open Cert.KernelIdeal Cert.KernelIdeal.Gen Idealize.ShloMosaic Idealize.ShloMosaic.TcCoe Idealize.ShloMosaic.ValueIdx Idealize.SL.Sem Cert.Score
open Idealize.ShloMosaic.Pipeline (Dat)
open Cert.KernelIdeal.CodeSums (book)
open scoped BigOperators

variable (m : (ℓ : Loc nD τ sig) → Buf (Elt Ideal) ℓ) (ρ : Dev nD → PrngReg)

/-- The features as launched on core `c`, at their literal type. -/
abbrev feats (c : Dev nD) : Vec Ideal S16384x1000 .f32 := m ((c : Thread nD τ).loc main_arg0)

/-- Every access of the body starts at the origin of its buffer. -/
theorem origin_zero : (![0, 0] : Fin 2 → Nat) = fun _ => 0 := funext fun a => by fin_cases a <;> rfl

/-- Where the blocks sit, decided over the 16 points: the features' block moves down the rows with the result's
    block; the code book and the row of sums stay at the origin; no window moves along the columns. -/
theorem block_positions : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15 :=
  (by decide +kernel : ∀ t : Fin grid0.N, _)

/-- WHAT POINT `t` WRITES BACK is block `t` of the score array of the launched features and code book. -/
theorem wrote_block (c : Dev nD) (t : Fin cfg0.N) :
    (dats m 0 c).flushed 3 t = ((cfg0.win 3).blk t).view.read (Elt Ideal) (score (feats m c) (book m c)) := by
  rw [Value.flushed3]
  unfold out0_3
  rw [View.canon_unit_zero origin_zero]
  simp only [View.ld_unit_zero (S := S1024x1000) origin_zero, View.ld_unit_zero (S := S1000x1000) origin_zero,
    View.ld_unit_zero (S := S1x1000) origin_zero]
  obtain ⟨e0, e1, e2, e3, e4, e5, e6, e7⟩ := block_positions t
  funext j
  obtain ⟨p, q, rfl⟩ : ∃ (p : Fin 1024) (q : Fin 1000), j = ix2 p q := ⟨j 0, j 1, eq_ix2 j⟩
  show k0_pay1 (iblk m c 0 t) (iblk m c 1 t) (iblk m c 2 t) (ix2 p q)
    = score (feats m c) (book m c) (((cfg0.win 3).blk t).view.emb (ix2 p q))
  unfold score scoreAt
  refine BlockScore.pay_of (iblk m c 0 t) (iblk m c 1 t) (iblk m c 2 t) p q
    (fun k => feats m c (ix2 (n0 := 16384) (n1 := 1000) (((cfg0.win 3).blk t).view.emb (ix2 p q) 0) k))
    (fun k => book m c (ix2 (n0 := 1000) (n1 := 1000) (((cfg0.win 3).blk t).view.emb (ix2 p q) 1) k))
    (∑ k : Fin 1000, book m c (ix2 (n0 := 1000) (n1 := 1000) (((cfg0.win 3).blk t).view.emb (ix2 p q) 1) k)) ?_ ?_ ?_
  · -- row `p` of the features' block is the array's row under the result's entry
    intro k
    show V m c main_arg0 (((cfg0.win 0).blk t).view.emb (ix2 p k)) = _
    rw [V_main_arg0]
    refine congrArg (feats m c) (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 1000 + 1 * k.val = k.val; omega
  · -- the code book's block is the whole code book
    intro k
    show V m c main_arg1 (((cfg0.win 1).blk t).view.emb (ix2 q k)) = _
    rw [V_main_arg1]
    refine congrArg (book m c) (funext fun a => Fin.ext ?_)
    match a with
    | ⟨0, _⟩ => show win0_1.index t (0 : Fin 2) * 1000 + 1 * q.val = win0_3.index t (1 : Fin 2) * 1000 + 1 * q.val; omega
    | ⟨1, _⟩ => show win0_1.index t (1 : Fin 2) * 1000 + 1 * k.val = k.val; omega
  · -- the block of the row of sums is the whole row, whose entry `q` is the sum of code word `q`
    show V m c main_v1 (((cfg0.win 2).blk t).view.emb (ix2 (0 : Fin 1) q)) = _
    have hq : ((cfg0.win 2).blk t).view.emb (ix2 (0 : Fin 1) q)
        = ix2 (n0 := 1) (n1 := 1000) (0 : Fin 1) (((cfg0.win 3).blk t).view.emb (ix2 p q) 1) := funext fun a => Fin.ext (by
      match a with
      | ⟨0, _⟩ => show win0_2.index t (0 : Fin 2) * 1 + 1 * 0 = 0; omega
      | ⟨1, _⟩ => show win0_2.index t (1 : Fin 2) * 1000 + 1 * q.val = win0_3.index t (1 : Fin 2) * 1000 + 1 * q.val; omega)
    rw [hq]
    exact CodeSums.row_at m c _

/-- An index of the result lies in point `t`'s block iff each coordinate is in the block's range on its axis. -/
theorem in_block_iff (t : Fin cfg0.N) (i : S16384x1000.Idx) :
    i ∈ ((cfg0.win 3).blk t).view.set ↔ ∀ a : Fin 2, win0_3.index t a * S1024x1000.size a ≤ (i a).val ∧ (i a).val < win0_3.index t a * S1024x1000.size a + S1024x1000.size a := by
  show i ∈ ((View.whole main_v2).slice (win0_3.rect t)).set ↔ _
  rw [View.set_slice_whole, Rect.mem_set_unit]
  exact Iff.rfl

/-- Each of the 16 bands of 1024 rows is some point's block. -/
theorem band_has_point : ∀ b : Fin 16, ∃ t : Fin cfg0.N, win0_3.index t = ![b.val, 0] :=
  (by decide +kernel : ∀ b : Fin 16, ∃ t : Fin grid0.N, win0_3.index t = ![b.val, 0])

/-- Every index of the result is written back by some point: row `n` lies in band `n / 1024`. -/
theorem covered (i : S16384x1000.Idx) : ∃ t : Fin cfg0.N, (cfg0.win 3).flush t = true ∧ i ∈ ((cfg0.win 3).blk t).view.set := by
  have hi0 : (i 0).val < 16384 := (i 0).isLt
  have hi1 : (i 1).val < 1000 := (i 1).isLt
  obtain ⟨t, ht⟩ := band_has_point ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [in_block_iff]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1000 ≤ (i 1).val ∧ (i 1).val < win0_3.index t (1 : Fin 2) * 1000 + 1000; omega

/-- THE RESULT ARRAY after the run is the score array of the launched features and code book. -/
theorem result_array (c : Dev nD) : (dats m 0 c).arrAt 3 cfg0.N = score (feats m c) (book m c) :=
  (dats m 0 c).arrAt_eq_of_cover 3 (score (feats m c) (book m c)) (fun t _ => wrote_block m c t) covered

/-- The kernel's run: it terminates with the result at the score array and the arguments unchanged. -/
theorem run : θ_run defs (onTc (τ := τ) (main (F := Ideal))) ⟨m, fun _ => 0, ρ⟩ fun r => ∀ c : Dev nD,
      r.2.mem ((c : Thread nD τ).loc main_v2) = score (feats m c) (book m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩) (Value.run_blocks m ρ)

end Cert.KernelIdeal.ScoreValue

end
-- ==== Proof.ReferenceScore.lean ====
/-
  The reference computes the score array.

  Read one operation at a time, the reference's result at `(n, k)` is: twice the contraction of feature row `n`
  with code word `k` (both along their second axis), plus 1000, minus the sum of feature row `n` (taken from
  zero, kept as a column and spread over the columns), minus the sum of code word `k` (taken from zero, laid out
  as a row and spread over the rows), the whole divided by 1000. Each layout step only re-reads an earlier
  value at re-arranged coordinates, so the four index compositions below are the whole content; a sum taken
  from zero is the sum.
-/
import proofs.«175877_j24867860644037_1_alg».proof.Proof.Gen.ReferenceIdeal.Read
import proofs.«175877_j24867860644037_1_alg».proof.Proof.Score
import Idealize.ShloMosaic.Lib.ValueIdx
import Idealize.ShloMosaic.PureOps.Ideal.Laws

noncomputable section

namespace Cert.ReferenceIdeal.ScoreValue

open Cert.ReferenceIdeal Cert.ReferenceIdeal.Read Idealize.ShloMosaic Idealize.ShloMosaic.ValueIdx Cert.Score
open scoped BigOperators

/-- The contraction reads the features at `(n, c)`, -/
theorem feature_of_contraction (i : S16384x1000.Idx) (k : Fin 1000) : lidx_main_v0 i k = ix2 (n0 := 16384) (n1 := 1000) (i 0) k :=
  funext fun a => Fin.ext (by match a with | ⟨0, _⟩ => rfl | ⟨1, _⟩ => rfl)
/-- and the code book at `(k, c)`. -/
theorem code_of_contraction (i : S16384x1000.Idx) (k : Fin 1000) : ridx_main_v0 i k = ix2 (n0 := 1000) (n1 := 1000) (i 1) k :=
  funext fun a => Fin.ext (by match a with | ⟨0, _⟩ => rfl | ⟨1, _⟩ => rfl)
/-- The spread column of row sums, at `(n, k)`, sums the features at `(n, c)`. -/
theorem feature_of_rowsum (i : S16384x1000.Idx) (k : Fin 1000) :
    idx_main_v1 (idx_main_v2 (idx_main_v9 i)) k = ix2 (n0 := 16384) (n1 := 1000) (i 0) k :=
  funext fun a => Fin.ext (by match a with | ⟨0, _⟩ => rfl | ⟨1, _⟩ => rfl)
/-- The spread row of code-word sums, at `(n, k)`, sums the code book at `(k, c)`. -/
theorem code_of_codesum (i : S16384x1000.Idx) (k : Fin 1000) :
    idx_main_v3 (idx_main_v4 (idx_main_v11 i)) k = ix2 (n0 := 1000) (n1 := 1000) (i 1) k :=
  funext fun a => Fin.ext (by match a with | ⟨0, _⟩ => rfl | ⟨1, _⟩ => rfl)

/-- The reference's last stage is the score array of its two arguments. -/
theorem result_eq (x0 : (⟨S16384x1000, .f32⟩ : BufTy).Contents (Elt Ideal)) (x1 : (⟨S1000x1000, .f32⟩ : BufTy).Contents (Elt Ideal)) :
    val_main_v14 (F := Ideal) x0 x1 = score x0 x1 := by
  funext i
  rw [val_main_v14_apply, val_main_v12_apply, val_main_v10_apply, val_main_v8_apply, val_main_v6_apply, val_main_v0_apply,
    val_main_v5_apply, val_main_cst_1_apply, val_main_v7_apply, val_main_cst_2_apply, val_main_v9_apply, val_main_v2_apply,
    val_main_v1_apply, val_main_cst_apply, val_main_v11_apply, val_main_v4_apply, val_main_v3_apply, val_main_cst_0_apply,
    val_main_v13_apply, val_main_cst_3_apply]
  unfold score scoreAt combine
  simp only [feature_of_contraction, code_of_contraction, feature_of_rowsum, code_of_codesum, Ideal.hostDivf_def,
    Ideal.subf_def, Ideal.addf_def, Ideal.mulf_def, Ideal.ofBits_def, Ideal.ofBits_zero_f32, zero_add]

end Cert.ReferenceIdeal.ScoreValue

end
-- ==== Proof.lean ====
/-
  Scores of a batch of feature rows against a code book: the tiled kernel and the plain reference agree.

  Both programs compute, for feature row `n` and code word `k` (each of length 1000),
      (2 · ⟨o_n, c_k⟩ + 1000 − Σ o_n − Σ c_k) / 1000,
  in this order of operations and with the same two literals. The kernel does it in 16 bands of 1024 rows,
  with the code words' sums taken once beforehand, its inner products by a matrix unit fed half-precision
  copies of the operands; the reference does it on whole arrays. At the ideal values a change of format is the
  identity and each of the three sums is the same finite sum on both sides, so the two results are one array —
  the score array of `Proof/Score.lean` — and nothing about the inputs' finiteness is used.

  * `Proof/BlockScore.lean`: one band's stored block, entry by entry.
  * `Proof/CodeSums.lean`: the row of code-word sums the kernel is handed.
  * `Proof/KernelScore.lean`: the bands tile the result, so the kernel's result array is the score array.
  * `Proof/ReferenceScore.lean`: the reference's last stage is the score array.
  The three frames: the kernel at the word level and at the ideal values by their runs, the reference by its run
  with the result dropped. The idealisation rewrote nothing, so there is nothing to preserve.
-/
import proofs.«175877_j24867860644037_1_alg».proof.Defs
import proofs.«175877_j24867860644037_1_alg».proof.Proof.Gen.Kernel
import proofs.«175877_j24867860644037_1_alg».proof.Proof.Gen.Kernel.Skeleton
import proofs.«175877_j24867860644037_1_alg».proof.Proof.Gen.Kernel.Launch
import proofs.«175877_j24867860644037_1_alg».proof.Proof.Gen.Kernel.Points
import proofs.«175877_j24867860644037_1_alg».proof.Proof.Gen.Kernel.Frame
import proofs.«175877_j24867860644037_1_alg».proof.Proof.Gen.KernelIdeal
import proofs.«175877_j24867860644037_1_alg».proof.Proof.Gen.KernelIdeal.Skeleton
import proofs.«175877_j24867860644037_1_alg».proof.Proof.Gen.KernelIdeal.Launch
import proofs.«175877_j24867860644037_1_alg».proof.Proof.Gen.KernelIdeal.Points
import proofs.«175877_j24867860644037_1_alg».proof.Proof.Gen.KernelIdeal.Frame
import proofs.«175877_j24867860644037_1_alg».proof.Proof.Gen.ReferenceIdeal
import proofs.«175877_j24867860644037_1_alg».proof.Proof.Gen.Pre_finite_inputs
import proofs.«175877_j24867860644037_1_alg».proof.Proof.Gen.KernelIdeal.Value
import proofs.«175877_j24867860644037_1_alg».proof.Proof.Gen.ReferenceIdeal.Run
import proofs.«175877_j24867860644037_1_alg».proof.Proof.Gen.ReferenceIdeal.Read
import proofs.«175877_j24867860644037_1_alg».proof.Proof.KernelScore
import proofs.«175877_j24867860644037_1_alg».proof.Proof.ReferenceScore
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does the kernel read at the ideal values. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments alone: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From arguments that agree, the kernel's result array and the reference's are both the score array. -/
theorem same_scores : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.ScoreValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v14_eq _ _).trans (Cert.ReferenceIdeal.ScoreValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, same_scores⟩

end Cert.Proof

end
